-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S4096x512 : Shape := ⟨2, ![4096, 512]⟩
abbrev S4096 : Shape := ⟨1, ![4096]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8x2048x512 .f32) (main_arg1 : FVec F S4096x512 .f32) (main_arg2 : FVec F S4096x512 .f32) (main_arg3 : FVec F S4096 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8x2048x512 : Shape := ⟨3, ![8, 2048, 512]⟩
abbrev S4096x512 : Shape := ⟨2, ![4096, 512]⟩
abbrev S4096 : Shape := ⟨1, ![4096]⟩
abbrev S16384x512 : Shape := ⟨2, ![16384, 512]⟩
abbrev S_ : Shape := ⟨0, ![]⟩
abbrev S1x4096 : Shape := ⟨2, ![1, 4096]⟩
abbrev S1024x512 : Shape := ⟨2, ![1024, 512]⟩
abbrev S512x512 : Shape := ⟨2, ![512, 512]⟩
abbrev S1x512 : Shape := ⟨2, ![1, 512]⟩
abbrev S1024x1 : Shape := ⟨2, ![1024, 1]⟩
abbrev S1024 : Shape := ⟨1, ![1024]⟩

abbrev nBuf : Space → Nat
  | .hbm => 12
  | .vmem => 14
  | .smem => 0
  | _ => 0

abbrev bufTy : (tb : Table) → Fin (tcTables nBuf tb) → BufTy
  | .hbm, ⟨0, _⟩ => ⟨S8x2048x512, .f32⟩
  | .hbm, ⟨1, _⟩ => ⟨S4096x512, .f32⟩
  | .hbm, ⟨2, _⟩ => ⟨S4096x512, .f32⟩
  | .hbm, ⟨3, _⟩ => ⟨S4096, .f32⟩
  | .hbm, ⟨4, _⟩ => ⟨S16384x512, .f32⟩
  | .hbm, ⟨5, _⟩ => ⟨S4096x512, .f32⟩
  | .hbm, ⟨6, _⟩ => ⟨S_, .f32⟩
  | .hbm, ⟨7, _⟩ => ⟨S4096, .f32⟩
  | .hbm, ⟨8, _⟩ => ⟨S1x4096, .f32⟩
  | .hbm, ⟨9, _⟩ => ⟨S1x4096, .f32⟩
  | .hbm, ⟨10, _⟩ => ⟨S16384x512, .f32⟩
  | .hbm, ⟨11, _⟩ => ⟨S8x2048x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x1, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v49 : BitVec 1 := Scalar.cmpi .eq arg1 c7_i32
  let v50 : BitVec 32 := Scalar.extui v49
  let c0_i32_25 : BitVec 32 := 0#32
  let v51 : BitVec 1 := Scalar.cmpi .ne v50 c0_i32_25
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S8x2048x512_S16384x512 : S8x2048x512.ShapeCasts S16384x512
  reducesTo_S4096x512_S4096_d1 : S4096x512.ReducesTo [1] S4096
  h_S_ : 0 < S_.numel
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S512x512_S512x512_0_0 : ∀ a, (![0, 0] : Fin 2 → Nat) a + S512x512.size a ≤ S512x512.size a
  h_S512x512 : 0 < S512x512.numel
  reduces_S1024x512_S1024 : S1024x512.Reduces [1] S1024
  shapeCasts_S1024_S1024x1 : S1024.ShapeCasts S1024x1
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  shapeCasts_S16384x512_S8x2048x512 : S16384x512.ShapeCasts S8x2048x512
  dot_S1024x512_S512x512_S1024x512_1_1_0_0_n_n_wf : DotDims.WF S1024x512 S512x512 S1024x512 [1] [1] [0] [0] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x512.size a
  hwx0_2 : ∀ i : grid0.Coords, EltTy.bits .f32 = 32 ∨ (Rect.block (s := S4096x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S16384x512.size a
  hwx0_5 : ∀ i : grid0.Coords, EltTy.bits .f32 = 32 ∨ (Rect.block (s := S16384x512) S1024x512.size (cc0_transform_5 i) (hinb0_5 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x2048x512 : Shape := ⟨3, ![8, 2048, 512]⟩
abbrev S4096x512 : Shape := ⟨2, ![4096, 512]⟩
abbrev S4096 : Shape := ⟨1, ![4096]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x4096 : Shape := ⟨2, ![16384, 4096]⟩
abbrev S512x4096 : Shape := ⟨2, ![512, 4096]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S4096x512, .f32⟩
  | .hbm, ⟨2, _⟩ => ⟨S4096x512, .f32⟩
  | .hbm, ⟨3, _⟩ => ⟨S4096, .f32⟩
  | .hbm, ⟨4, _⟩ => ⟨S16384x512, .f32⟩
  | .hbm, ⟨5, _⟩ => ⟨S16384x512, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S4096x512, .f32⟩
  | .hbm, ⟨10, _⟩ => ⟨S_, .f32⟩
  | .hbm, ⟨11, _⟩ => ⟨S4096, .f32⟩
  | .hbm, ⟨12, _⟩ => ⟨S1x4096, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S512x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S4096, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S1x4096, .f32⟩
  | .hbm, ⟨32, _⟩ => ⟨S16384x4096, .f32⟩
  | .hbm, ⟨33, _⟩ => ⟨S16384x4096, .f32⟩
  | .hbm, ⟨34, _⟩ => ⟨S16384x4096, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x4096, .f32⟩
  | .hbm, ⟨42, _⟩ => ⟨S16384x4096, .f32⟩
  | .hbm, ⟨43, _⟩ => ⟨S16384x512, .f32⟩
  | .hbm, ⟨44, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  shapeCasts_S8x2048x512_S16384x512 : S8x2048x512.ShapeCasts S16384x512
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S4096x512_S4096_d1 : S4096x512.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  transposes_S4096x512_S512x4096_1_0 : S4096x512.Transposes [1, 0] S512x4096
  bcast_S_S16384x4096 : S_.BroadcastsInDim S16384x4096 (![] : Fin 0 → Fin S16384x4096.rank)
  bcast_S_S4096 : S_.BroadcastsInDim S4096 (![] : Fin 0 → Fin S4096.rank)
  reducesTo_S16384x4096_S16384_d1 : S16384x4096.ReducesTo [1] S16384
  bcast_S_S16384x1 : S_.BroadcastsInDim S16384x1 (![] : Fin 0 → Fin S16384x1.rank)
  shapeCasts_S16384x512_S8x2048x512 : S16384x512.ShapeCasts S8x2048x512
  dot_S16384x512_S512x4096_S16384x4096_1_0_0_1_n_n_wf : DotDims.WF S16384x512 S512x4096 S16384x4096 [1] [0] [0] [1] [] []
  dot_S16384x4096_S4096x512_S16384x512_1_0_0_1_n_n_wf : DotDims.WF S16384x4096 S4096x512 S16384x512 [1] [0] [0] [1] [] []

variable [Facts₀]

def dot_S16384x512_S512x4096_S16384x4096_1_0_0_1_n_n : DotDims S16384x512 S512x4096 S16384x4096 where
  lhsContracting := [1]
  rhsContracting := [0]
  lhsNonContracting := [0]
  rhsNonContracting := [1]
  lhsBatch := []
  rhsBatch := []
  wf := dot_S16384x512_S512x4096_S16384x4096_1_0_0_1_n_n_wf
def dot_S16384x4096_S4096x512_S16384x512_1_0_0_1_n_n : DotDims S16384x4096 S4096x512 S16384x512 where
  lhsContracting := [1]
  rhsContracting := [0]
  lhsNonContracting := [0]
  rhsNonContracting := [1]
  lhsBatch := []
  rhsBatch := []
  wf := dot_S16384x4096_S4096x512_S16384x512_1_0_0_1_n_n_wf

class Facts : Prop extends Facts₀ where

variable [Facts]
-- ==== Proof.Spec.lean ====
/-
  The mathematics both programs compute, over the extended reals, with every array read as a function of its
  coordinates: a query row `x r` (16384 rows of 512), a codebook of 4096 positions `p n` and values `v n` (512 wide) and
  a temperature `tm n` per codebook entry.

    weight   w r n = exp (-(√ max (‖x r‖² + ‖p n‖² - 2 ⟨x r, p n⟩) 0) / (|tm n| + 0.1))
    result   out r d = (∑ n, w r n · v n d) / (∑ n, w r n + 1e-8)            (normalise after the weighted sum)
             out r d = ∑ n, (w r n / (∑ n', w r n' + 1e-8)) · v n d          (normalise each weight first)

  The two results agree when every input is a real number: each weight is then a positive real, the divisor a positive
  real, and dividing by it distributes over the finite sum. The codebook sum is also cut into eight tiles of 512
  entries and the rows into sixteen blocks of 1024 (`tile`, `rowOf`): a sum over the codebook is the sum over the
  tiles of the sums inside each tile (`sum_tiles`), in any association, since addition of extended reals is commutative
  and associative.
-/
import Idealize.ShloMosaic.PureOps.Ideal
import Idealize.ShloMosaic.PureOps.Ideal.Laws

noncomputable section

namespace Cert.Rbf

open Idealize.ShloMosaic

/-- The three float literals both programs share, as the extended reals their words denote: `2`, the temperature
    offset (the f32 nearest `0.1`) and the divisor's offset (the f32 nearest `1e-8`). -/
abbrev two : EReal := Ideal.ofBits .f32 0x40000000#32
abbrev tOff : EReal := Ideal.ofBits .f32 0x3DCCCCCD#32
abbrev eps : EReal := Ideal.ofBits .f32 0x322BCC77#32

/-- One weight from the four numbers it depends on: the row's squared norm `xs`, the position's squared norm `ps`,
    their inner product `dt` and the temperature `tm`. -/
def wt (xs ps dt tm : EReal) : EReal :=
  Ideal.exp (Ideal.div (-(Ideal.sqrt (max (xs + ps - two * dt) 0))) (max tm (-tm) + tOff))

section
variable (X : Fin 16384 → Fin 512 → EReal) (P V : Fin 4096 → Fin 512 → EReal) (Tm : Fin 4096 → EReal)

/-- The weight of codebook entry `n` for row `r`. -/
def W (r : Fin 16384) (n : Fin 4096) : EReal :=
  wt (∑ d : Fin 512, X r d * X r d) (∑ d : Fin 512, P n d * P n d) (∑ d : Fin 512, X r d * P n d) (Tm n)

/-- The result, normalised after the weighted sum. -/
def outK (r : Fin 16384) (d : Fin 512) : EReal :=
  Ideal.div (∑ n : Fin 4096, W X P Tm r n * V n d) (∑ n : Fin 4096, W X P Tm r n + eps)

/-- The result, each weight normalised first. -/
def outR (r : Fin 16384) (d : Fin 512) : EReal :=
  ∑ n : Fin 4096, Ideal.div (W X P Tm r n) (∑ n' : Fin 4096, W X P Tm r n' + eps) * V n d
end

/-- Entry `q` of codebook tile `j` (tiles of 512; `j < 8` is what is used). -/
def tile (j : ℕ) (q : Fin 512) : Fin 4096 := ⟨(512 * j + q.val) % 4096, Nat.mod_lt _ (by norm_num)⟩
/-- Row `p` of row block `i` (blocks of 1024; `i < 16` is what is used). -/
def rowOf (i : ℕ) (p : Fin 1024) : Fin 16384 := ⟨(1024 * i + p.val) % 16384, Nat.mod_lt _ (by norm_num)⟩

theorem tile_val {j : ℕ} (hj : j < 8) (q : Fin 512) : (tile j q).val = 512 * j + q.val := by
  have := q.isLt
  show (512 * j + q.val) % 4096 = _
  exact Nat.mod_eq_of_lt (by omega)

theorem rowOf_val {i : ℕ} (hi : i < 16) (p : Fin 1024) : (rowOf i p).val = 1024 * i + p.val := by
  have := p.isLt
  show (1024 * i + p.val) % 16384 = _
  exact Nat.mod_eq_of_lt (by omega)

/-- Tile number and place inside the tile, as one index of the codebook: `(j, q) ↦ 512 j + q` is a bijection from
    `8 × 512` onto `4096`, with inverse `n ↦ (n / 512, n % 512)`. -/
def tileEquiv : Fin 8 × Fin 512 ≃ Fin 4096 where
  toFun x := tile x.1.val x.2
  invFun n := (⟨n.val / 512, by have := n.isLt; omega⟩, ⟨n.val % 512, Nat.mod_lt _ (by norm_num)⟩)
  left_inv x := by
    rcases x with ⟨j, q⟩
    have h := tile_val j.isLt q
    have hq := q.isLt
    refine Prod.ext (Fin.ext ?_) (Fin.ext ?_)
    · show (tile j.val q).val / 512 = j.val
      omega
    · show (tile j.val q).val % 512 = q.val
      omega
  right_inv n := by
    have hn := n.isLt
    apply Fin.ext
    have h := tile_val (j := n.val / 512) (by omega) ⟨n.val % 512, Nat.mod_lt _ (by norm_num)⟩
    show (tile (n.val / 512) ⟨n.val % 512, _⟩).val = n.val
    rw [h]
    show 512 * (n.val / 512) + n.val % 512 = n.val
    omega

/-- A sum over the codebook is the sum, over the eight tiles, of the sums inside each tile: the double sum is a sum
    over the pairs `(j, q)`, and the pairs are the codebook indices in another order. -/
theorem sum_tiles {M : Type*} [AddCommMonoid M] (f : Fin 4096 → M) :
    ∑ j ∈ Finset.range 8, ∑ q : Fin 512, f (tile j q) = ∑ n : Fin 4096, f n := by
  rw [← Fin.sum_univ_eq_sum_range (fun j => ∑ q : Fin 512, f (tile j q)) 8]
  rw [← Fintype.sum_prod_type']
  exact Fintype.sum_equiv tileEquiv _ _ (fun x => rfl)

/-! ### Real inputs give real, positive weights -/

/-- The literal `2` is a real number: `2²³ · 2⁻²²`. -/
theorem two_real : ∃ c : ℝ, two = (c : EReal) := by
  refine ⟨8388608 * ((2 : ℝ) ^ 22)⁻¹, ?_⟩
  simp [two, Ideal.ofBits, Ideal.ieee]

/-- The temperature offset is a positive real number: `13421773 · 2⁻²⁷`. -/
theorem tOff_pos : ∃ c : ℝ, 0 < c ∧ tOff = (c : EReal) := by
  refine ⟨13421773 * ((2 : ℝ) ^ 27)⁻¹, by positivity, ?_⟩
  simp [tOff, Ideal.ofBits, Ideal.ieee]

/-- The divisor's offset is a positive real number: `11258999 · 2⁻⁵⁰`. -/
theorem eps_pos : ∃ c : ℝ, 0 < c ∧ eps = (c : EReal) := by
  refine ⟨11258999 * ((2 : ℝ) ^ 50)⁻¹, by positivity, ?_⟩
  simp [eps, Ideal.ofBits, Ideal.ieee]

/-- A finite sum of real numbers, taken in the extended reals, is the real sum. -/
theorem coe_sum {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- The larger of two real numbers, taken in the extended reals, is the real maximum (the inclusion is monotone). -/
theorem coe_max (a b : ℝ) : max (a : EReal) (b : EReal) = ((max a b : ℝ) : EReal) :=
  (EReal.coe_strictMono.monotone.map_max).symm

/-- From four real numbers the weight is a positive real: the square root's argument `max _ 0` is a nonnegative real,
    the divisor `|tm| + offset` a positive real, so the quotient is a real number and its exponential positive. -/
theorem wt_real (xs ps dt tm : ℝ) : ∃ w : ℝ, 0 < w ∧ wt xs ps dt tm = (w : EReal) := by
  obtain ⟨c2, h2⟩ := two_real
  obtain ⟨t, ht, hto⟩ := tOff_pos
  have hden : max (tm : EReal) (-(tm : EReal)) + tOff = ((max tm (-tm) + t : ℝ) : EReal) := by
    rw [hto, EReal.coe_add, ← coe_max, EReal.coe_neg]
  have hpos : 0 < max tm (-tm) + t := by
    have : 0 ≤ max tm (-tm) := by
      rcases le_total 0 tm with h | h
      · exact le_max_of_le_left h
      · exact le_max_of_le_right (by linarith)
    linarith
  have harg : max ((xs : EReal) + ps - two * dt) 0 = ((max (xs + ps - c2 * dt) 0 : ℝ) : EReal) := by
    rw [h2, ← coe_max, EReal.coe_sub, EReal.coe_add, EReal.coe_mul, EReal.coe_zero]
  refine ⟨Real.exp (-(Real.sqrt (max (xs + ps - c2 * dt) 0)) * (1 / (max tm (-tm) + t))), Real.exp_pos _, ?_⟩
  unfold wt
  rw [hden, harg, Ideal.sqrt_coe, if_neg (not_lt.mpr (le_max_right _ _)), Ideal.div_coe hpos.ne',
    ← EReal.coe_neg, ← EReal.coe_mul, Ideal.exp_coe]

/-- With real rows, positions and temperatures every weight is a positive real: the two squared norms and the inner
    product are finite sums of products of reals. -/
theorem W_real (X : Fin 16384 → Fin 512 → EReal) (P : Fin 4096 → Fin 512 → EReal) (Tm : Fin 4096 → EReal)
    (hX : ∀ r d, ∃ a : ℝ, X r d = (a : EReal)) (hP : ∀ n d, ∃ a : ℝ, P n d = (a : EReal))
    (hT : ∀ n, ∃ a : ℝ, Tm n = (a : EReal)) (r : Fin 16384) (n : Fin 4096) :
    ∃ w : ℝ, 0 < w ∧ W X P Tm r n = (w : EReal) := by
  choose x hx using hX
  choose p hp using hP
  choose tm htm using hT
  unfold W
  simp only [hx, hp, htm, ← EReal.coe_mul, coe_sum]
  exact wt_real _ _ _ _

/-- With every input a real number the two normalisations agree. -/
theorem outK_eq_outR (X : Fin 16384 → Fin 512 → EReal) (P V : Fin 4096 → Fin 512 → EReal) (Tm : Fin 4096 → EReal)
    (hX : ∀ r d, ∃ a : ℝ, X r d = (a : EReal)) (hP : ∀ n d, ∃ a : ℝ, P n d = (a : EReal))
    (hV : ∀ n d, ∃ a : ℝ, V n d = (a : EReal)) (hT : ∀ n, ∃ a : ℝ, Tm n = (a : EReal))
    (r : Fin 16384) (d : Fin 512) : outK X P V Tm r d = outR X P V Tm r d := by
  -- the weights of row `r` are positive reals `w n`, the values reals `v n d`, the offset a positive real `e`
  choose w hwpos hw using fun n => W_real X P Tm hX hP hT r n
  choose v hv using hV
  obtain ⟨e, he, heps⟩ := eps_pos
  -- so the divisor is the positive real `∑ w + e`
  have hden : ∑ n : Fin 4096, W X P Tm r n + eps = ((∑ n : Fin 4096, w n + e : ℝ) : EReal) := by
    rw [heps, EReal.coe_add, ← coe_sum]
    simp only [hw]
  have hc : (∑ n : Fin 4096, w n + e : ℝ) ≠ 0 := by
    have : 0 ≤ ∑ n : Fin 4096, w n := Finset.sum_nonneg (fun n _ => (hwpos n).le)
    linarith
  -- dividing by it is multiplying by its reciprocal, and both sides become identities between real numbers:
  -- `(∑ w n · v n) · c⁻¹ = ∑ (w n · c⁻¹) · v n`
  unfold outK outR
  rw [hden]
  simp only [Ideal.div_coe hc, hw, hv, ← EReal.coe_mul, coe_sum]
  congr 1
  rw [Finset.sum_mul]
  refine Finset.sum_congr rfl (fun n _ => ?_)
  ring

end Cert.Rbf

end
-- ==== Proof.Finite.lean ====
/-
  From the precondition to real numbers. The precondition says, of each of the four input arrays, that every entry's
  absolute value lies strictly below +∞; on the extended reals that leaves exactly the real numbers: an entry that is
  +∞ or -∞ has absolute value +∞, which is not below +∞.
-/
import proofs.«145345_j18339510354278_1_alg».proof.Pre_finite_inputs
import proofs.«145345_j18339510354278_1_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Cert.Pre_finite_inputs

/-- The shape with no axes has exactly one index. -/
instance subsingleton_S_Idx : Subsingleton S_.Idx := ⟨fun a b => funext fun d => d.elim0⟩

/-- The word 0x7F800000 is +∞ in single precision: sign clear, exponent all ones, fraction zero. -/
theorem inf_word : Ideal.ofBits .f32 0x7F800000#32 = (⊤ : EReal) := by
  simp [Ideal.ofBits, Ideal.ieee]

/-- An extended real whose absolute value max x (-x) lies strictly below +∞ is a real number: at -∞ the negation
    is +∞, at +∞ the entry itself is, and in both cases the maximum is +∞. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The comparison "|x| < +∞" answering 1 says x is a real number. -/
theorem real_of_cmp (x : Ideal .f32)
    (h : FloatOps.cmpf .olt (FloatOps.hostAbsf x) (FloatOps.ofBits (F := Ideal) .f32 0x7F800000#32) = 1#1) :
    ∃ r : ℝ, x = (r : EReal) := by
  apply real_of_abs_lt_top
  change Ideal.cmp .olt (max x (-x)) (Ideal.ofBits .f32 0x7F800000#32) = 1#1 at h
  rw [inf_word] at h
  by_contra hn
  simp [Ideal.cmp, hn] at h

/-- Where the precondition holds every entry of every input is a real number. -/
theorem real_of_finite_inputs [Cert.Pre_finite_inputs.Facts]
    (a0 : FVec Ideal S8x2048x512 .f32) (a1 a2 : FVec Ideal S4096x512 .f32) (a3 : FVec Ideal S4096 .f32)
    (h : Cert.Pre_finite_inputs.fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  refine ⟨fun i => ?_, fun i => ?_, fun i => ?_, fun i => ?_⟩
  · exact real_of_cmp _ (Host.reduce_andi_all _ _ _ _ _ h0' i)
  · exact real_of_cmp _ (Host.reduce_andi_all _ _ _ _ _ h1 i)
  · exact real_of_cmp _ (Host.reduce_andi_all _ _ _ _ _ h2 i)
  · exact real_of_cmp _ (Host.reduce_andi_all _ _ _ _ _ h3 i)

end Cert.Finite

end
-- ==== Proof.RefValue.lean ====
/-
  The reference program's result before its last reshape, read at one index: row `r`, column `d` of the 16384 × 512
  array is ∑ n, (w r n / (∑ n', w r n' + 1e-8)) · v n d — each weight normalised first — with the weights those of the
  reshaped query rows, the positions and the temperatures. The host's sums start from the zero word, which is the
  extended real 0; its negate, abs, divide, sqrt and exp are the kernel's operations on the extended reals.
-/
import proofs.«145345_j18339510354278_1_alg».proof.Proof.Gen.ReferenceIdeal.Read
import proofs.«145345_j18339510354278_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read

/-! ### Where each stage reads its operand

Every broadcast, transpose and sum of the program reads its operand at an index computed from the result's index. With
the result's index given by its coordinates, each composed index is again given by coordinates. -/

/-- Row `r`'s squared norm is broadcast along the codebook axis: its `k`-th summand sits at `(r, k)`. -/
theorem idx_rowNorm (r : Fin 16384) (n : Fin 4096) (k : Fin 512) :
    idx_main_v2 (idx_main_v3 (idx_main_v7 (ix2 r n))) k = ix2 r k :=
  funext fun a => Fin.ext (by match a with | ⟨0, _⟩ => rfl | ⟨1, _⟩ => rfl)

/-- Position `n`'s squared norm is broadcast along the row axis: its `k`-th summand sits at `(n, k)`. -/
theorem idx_posNorm (r : Fin 16384) (n : Fin 4096) (k : Fin 512) :
    idx_main_v5 (idx_main_v6 (idx_main_v8 (ix2 r n))) k = ix2 n k :=
  funext fun a => Fin.ext (by match a with | ⟨0, _⟩ => rfl | ⟨1, _⟩ => rfl)

/-- The inner product's left factor: entry `k` of row `r`. -/
theorem idx_dotL (r : Fin 16384) (n : Fin 4096) (k : Fin 512) :
    lidx_main_v11 (ix2 r n) k = ix2 r k :=
  funext fun a => Fin.ext (by match a with | ⟨0, _⟩ => rfl | ⟨1, _⟩ => rfl)

/-- The inner product's right factor, through the transpose: entry `k` of position `n`. -/
theorem idx_dotR (r : Fin 16384) (n : Fin 4096) (k : Fin 512) :
    idx_main_v10 (ridx_main_v11 (ix2 r n) k) = ix2 n k :=
  funext fun a => Fin.ext (by match a with | ⟨0, _⟩ => rfl | ⟨1, _⟩ => rfl)

/-- The temperature divisor is broadcast along the row axis: entry `n`. -/
theorem idx_temp (r : Fin 16384) (n : Fin 4096) :
    idx_main_v22 (idx_main_v23 (ix2 r n)) = ix1 n :=
  funext fun a => Fin.ext (by match a with | ⟨0, _⟩ => rfl)

/-- The row sum of the weights runs over the codebook: its `k`-th summand sits at `(r, k)`. -/
theorem idx_rowSum (r : Fin 16384) (k : Fin 4096) :
    idx_main_v26 (ix1 r) k = ix2 r k :=
  funext fun a => Fin.ext (by match a with | ⟨0, _⟩ => rfl | ⟨1, _⟩ => rfl)

/-- The divisor is broadcast along the codebook axis: it is row `r`'s. -/
theorem idx_divisor (r : Fin 16384) (n : Fin 4096) :
    idx_main_v27 (idx_main_v30 (ix2 r n)) = ix1 r :=
  funext fun a => Fin.ext (by match a with | ⟨0, _⟩ => rfl)

/-- The last product's left factor: the normalised weight at `(r, k)`. -/
theorem idx_outL (r : Fin 16384) (d : Fin 512) (k : Fin 4096) :
    lidx_main_v32 (ix2 r d) k = ix2 r k :=
  funext fun a => Fin.ext (by match a with | ⟨0, _⟩ => rfl | ⟨1, _⟩ => rfl)

/-- The last product's right factor: the value at `(k, d)`. -/
theorem idx_outR (r : Fin 16384) (d : Fin 512) (k : Fin 4096) :
    ridx_main_v32 (ix2 r d) k = ix2 k d :=
  funext fun a => Fin.ext (by match a with | ⟨0, _⟩ => rfl | ⟨1, _⟩ => rfl)

/-! ### The four numbers a weight depends on -/

/-- The broadcast squared norm of row `r`: the sum of the squares of its entries (the sum starts from the zero word). -/
theorem rowNorm_eq (x0 : FVec Ideal S8x2048x512 .f32) (r : Fin 16384) (n : Fin 4096) :
    val_main_v7 (F := Ideal) x0 (ix2 r n)
      = ∑ d : Fin 512, val_main_v0 (F := Ideal) x0 (ix2 r d) * val_main_v0 (F := Ideal) x0 (ix2 r d) := by
  rw [val_main_v7_apply, val_main_v3_apply, val_main_v2_apply, val_main_cst_apply]
  simp only [val_main_v1_apply, idx_rowNorm, Ideal.ofBits_def, Ideal.ofBits_zero_f32, zero_add, Ideal.mulf_def]

/-- The broadcast squared norm of position `n`. -/
theorem posNorm_eq (x1 : FVec Ideal S4096x512 .f32) (r : Fin 16384) (n : Fin 4096) :
    val_main_v8 (F := Ideal) x1 (ix2 r n) = ∑ d : Fin 512, x1 (ix2 n d) * x1 (ix2 n d) := by
  rw [val_main_v8_apply, val_main_v6_apply, val_main_v5_apply, val_main_cst_0_apply]
  simp only [val_main_v4_apply, idx_posNorm, Ideal.ofBits_def, Ideal.ofBits_zero_f32, zero_add, Ideal.mulf_def]

/-- The inner product of row `r` and position `n`. -/
theorem dot_eq (x0 : FVec Ideal S8x2048x512 .f32) (x1 : FVec Ideal S4096x512 .f32) (r : Fin 16384) (n : Fin 4096) :
    val_main_v11 (F := Ideal) x0 x1 (ix2 r n)
      = ∑ d : Fin 512, val_main_v0 (F := Ideal) x0 (ix2 r d) * x1 (ix2 n d) := by
  rw [val_main_v11_apply]
  simp only [val_main_v10_apply, idx_dotL, idx_dotR]

/-- The temperature divisor of entry `n`: `|tm n|` plus the offset. -/
theorem temp_eq (x3 : FVec Ideal S4096 .f32) (r : Fin 16384) (n : Fin 4096) :
    val_main_v23 (F := Ideal) x3 (ix2 r n) = max (x3 (ix1 n)) (-(x3 (ix1 n))) + Cert.Rbf.tOff := by
  rw [val_main_v23_apply, val_main_v22_apply, idx_temp, val_main_v21_apply, val_main_v19_apply, val_main_v20_apply,
    val_main_cst_3_apply]
  simp only [Ideal.addf_def, Ideal.hostAbsf_def, Ideal.absf_def, Ideal.ofBits_def]

/-! ### The weight, the row sum, the divisor, the result -/

/-- The program's weight at `(r, n)` is the weight of entry `n` for row `r`. -/
theorem weight_eq (x0 : FVec Ideal S8x2048x512 .f32) (x1 : FVec Ideal S4096x512 .f32) (x3 : FVec Ideal S4096 .f32)
    (r : Fin 16384) (n : Fin 4096) :
    val_main_v25 (F := Ideal) x0 x1 x3 (ix2 r n)
      = Cert.Rbf.W (fun r d => val_main_v0 (F := Ideal) x0 (ix2 r d)) (fun n d => x1 (ix2 n d)) (fun n => x3 (ix1 n)) r n := by
  rw [val_main_v25_apply, val_main_v24_apply, val_main_v18_apply, val_main_v17_apply, val_main_v16_apply,
    val_main_v14_apply, val_main_v9_apply, val_main_v13_apply, val_main_v12_apply, val_main_cst_1_apply,
    val_main_v15_apply, val_main_cst_2_apply, rowNorm_eq, posNorm_eq, dot_eq, temp_eq]
  unfold Cert.Rbf.W Cert.Rbf.wt
  simp only [Ideal.hostUnary_exp_def, Ideal.hostDivf_def, Ideal.hostNegf_def, Ideal.negf_def, Ideal.hostUnary_sqrt_def,
    Ideal.maximumf_def, Ideal.subf_def, Ideal.addf_def, Ideal.mulf_def, Ideal.ofBits_def, Ideal.ofBits_zero_f32]

/-- The sum of row `r`'s weights (the sum starts from the zero word). -/
theorem rowSum_eq (x0 : FVec Ideal S8x2048x512 .f32) (x1 : FVec Ideal S4096x512 .f32) (x3 : FVec Ideal S4096 .f32)
    (r : Fin 16384) :
    val_main_v26 (F := Ideal) x0 x1 x3 (ix1 r)
      = ∑ n : Fin 4096, Cert.Rbf.W (fun r d => val_main_v0 (F := Ideal) x0 (ix2 r d)) (fun n d => x1 (ix2 n d))
          (fun n => x3 (ix1 n)) r n := by
  rw [val_main_v26_apply, val_main_cst_4_apply]
  simp only [idx_rowSum, weight_eq, Ideal.ofBits_def, Ideal.ofBits_zero_f32, zero_add]

/-- The divisor broadcast to `(r, n)`: row `r`'s sum of weights plus the offset. -/
theorem divisor_eq (x0 : FVec Ideal S8x2048x512 .f32) (x1 : FVec Ideal S4096x512 .f32) (x3 : FVec Ideal S4096 .f32)
    (r : Fin 16384) (n : Fin 4096) :
    val_main_v30 (F := Ideal) x0 x1 x3 (ix2 r n)
      = ∑ n' : Fin 4096, Cert.Rbf.W (fun r d => val_main_v0 (F := Ideal) x0 (ix2 r d)) (fun n d => x1 (ix2 n d))
          (fun n => x3 (ix1 n)) r n' + Cert.Rbf.eps := by
  rw [val_main_v30_apply, val_main_v29_apply, val_main_v27_apply, idx_divisor, rowSum_eq, val_main_v28_apply,
    val_main_cst_5_apply]
  simp only [Ideal.addf_def, Ideal.ofBits_def]

/-- The reference's result before the last reshape is the result with each weight normalised first, of the query rows as
    the first reshape lays them out. -/
theorem result_eq (x0 : FVec Ideal S8x2048x512 .f32) (x1 x2 : FVec Ideal S4096x512 .f32) (x3 : FVec Ideal S4096 .f32)
    (i : S16384x512.Idx) :
    val_main_v32 (F := Ideal) x0 x1 x2 x3 i
      = Cert.Rbf.outR (fun r d => val_main_v0 (F := Ideal) x0 (ix2 r d)) (fun n d => x1 (ix2 n d)) (fun n d => x2 (ix2 n d))
          (fun n => x3 (ix1 n)) (i 0) (i 1) := by
  obtain ⟨r, d, rfl⟩ : ∃ (r : Fin 16384) (d : Fin 512), i = ix2 r d := ⟨i 0, i 1, eq_ix2 i⟩
  show val_main_v32 (F := Ideal) x0 x1 x2 x3 (ix2 r d)
      = Cert.Rbf.outR (fun r d => val_main_v0 (F := Ideal) x0 (ix2 r d)) (fun n d => x1 (ix2 n d)) (fun n d => x2 (ix2 n d))
          (fun n => x3 (ix1 n)) r d
  rw [val_main_v32_apply]
  unfold Cert.Rbf.outR
  simp only [val_main_v31_apply, idx_outL, idx_outR, weight_eq, divisor_eq, Ideal.hostDivf_def]

end Cert.ReferenceIdeal.RefValue

end
-- ==== Proof.KPieces.lean ====
/-
  What the kernel body leaves behind at one grid point, as values. The body has three control cases: at a tile index of
  zero it first resets the two running buffers (the weighted sum, 1024 × 512, and the sum of weights, 1024 × 1) and then
  accumulates; at the tile indices 1 … 6 it accumulates onto what the point before left; at tile index 7 it accumulates
  and then stores the quotient into the result block. Each buffer's final contents are the last store that covers it,
  and that store's value is a pure function of the blocks the body loaded:
    running weighted sum  =  (what it held, or zero after a reset) + weights · values   of the tile,
    running sum of weights =  (what it held, or zero after a reset) + row sums of the weights,
    result block           =  running weighted sum / (running sum of weights + small offset),
  the weights those of the row block, the tile's positions, its squared norms and its temperatures.
-/
import proofs.«145345_j18339510354278_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Cert.KernelIdeal Cert.KernelIdeal.Gen
open Idealize.ShloMosaic.Pipeline (Dat)

variable {F : FTy → Type} [FloatOps F]

theorem hz : (![0, 0] : Fin 2 → Nat) = fun _ => 0 := funext fun a => by fin_cases a <;> rfl

/-- Case B: the running weighted sum's buffer ends at what it held plus the tile's contribution. -/
theorem accB (c : Dev nD) (i : grid0.Coords) (a2 : Memref sig .tc .vmem S1024x512 .f32) (h2 : a2.IsWhole) (a3 : Memref sig .tc .vmem S512x512 .f32) (h3 : a3.IsWhole) (a4 : Memref sig .tc .vmem S512x512 .f32) (h4 : a4.IsWhole) (a5 : Memref sig .tc .vmem S1x512 .f32) (h5 : a5.IsWhole) (a6 : Memref sig .tc .vmem S1x512 .f32) (h6 : a6.IsWhole) (a7 : Memref sig .tc .vmem S1024x512 .f32) (h7 : a7.IsWhole) (a8 : Memref sig .tc .vmem S1024x512 .f32) (h8 : a8.IsWhole) (a9 : Memref sig .tc .vmem S1024x1 .f32) (h9 : a9.IsWhole) (hc0 : ¬cond0_0 i) (hc1 : ¬cond0_1 i) (x0 : Vec F S1024x512 .f32) (x1 : Vec F S512x512 .f32) (x2 : Vec F S512x512 .f32) (x3 : Vec F S1x512 .f32) (x4 : Vec F S1x512 .f32) (xs0 : Vec F S1024x512 .f32) (xs1 : Vec F S1024x1 .f32) :
    sout0_B_0 c i a2 h2 a3 h3 a4 h4 a5 h5 a6 h6 a7 h7 a8 h8 a9 h9 hc0 hc1 x0 x1 x2 x3 x4 xs0 xs1 = k0_pay2 x2 (k0_pay6 x0 x1 x4 x3) xs0 := by
  unfold sout0_B_0
  rw [View.read_writes_eq_canon _ _ _ (scover0_B_0 c i a2 h2 a3 h3 a4 h4 a5 h5 a6 h6 a7 h7 a8 h8 a9 h9 hc0 hc1 x0 x1 x2 x3 x4 xs0 xs1)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, View.ld_unit_zero (S := S1024x512) hz, View.ld_unit_zero (S := S512x512) hz, View.ld_unit_zero (S := S1x512) hz, View.ld_unit_zero (S := S1024x1) hz]

/-- Case B: the running sum of weights ends at what it held plus the tile's row sums. -/
theorem sumwB (c : Dev nD) (i : grid0.Coords) (a2 : Memref sig .tc .vmem S1024x512 .f32) (h2 : a2.IsWhole) (a3 : Memref sig .tc .vmem S512x512 .f32) (h3 : a3.IsWhole) (a4 : Memref sig .tc .vmem S512x512 .f32) (h4 : a4.IsWhole) (a5 : Memref sig .tc .vmem S1x512 .f32) (h5 : a5.IsWhole) (a6 : Memref sig .tc .vmem S1x512 .f32) (h6 : a6.IsWhole) (a7 : Memref sig .tc .vmem S1024x512 .f32) (h7 : a7.IsWhole) (a8 : Memref sig .tc .vmem S1024x512 .f32) (h8 : a8.IsWhole) (a9 : Memref sig .tc .vmem S1024x1 .f32) (h9 : a9.IsWhole) (hc0 : ¬cond0_0 i) (hc1 : ¬cond0_1 i) (x0 : Vec F S1024x512 .f32) (x1 : Vec F S512x512 .f32) (x2 : Vec F S512x512 .f32) (x3 : Vec F S1x512 .f32) (x4 : Vec F S1x512 .f32) (xs0 : Vec F S1024x512 .f32) (xs1 : Vec F S1024x1 .f32) :
    sout0_B_1 c i a2 h2 a3 h3 a4 h4 a5 h5 a6 h6 a7 h7 a8 h8 a9 h9 hc0 hc1 x0 x1 x2 x3 x4 xs0 xs1 = k0_pay1 xs1 (k0_pay7 x0 x1 x4 x3) := by
  unfold sout0_B_1
  rw [View.read_writes_eq_canon _ _ _ (scover0_B_1 c i a2 h2 a3 h3 a4 h4 a5 h5 a6 h6 a7 h7 a8 h8 a9 h9 hc0 hc1 x0 x1 x2 x3 x4 xs0 xs1)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, View.ld_unit_zero (S := S1024x512) hz, View.ld_unit_zero (S := S512x512) hz, View.ld_unit_zero (S := S1x512) hz, View.ld_unit_zero (S := S1024x1) hz]

/-- Case C: the running weighted sum's buffer ends at what it held plus the tile's contribution. -/
theorem accC (c : Dev nD) (i : grid0.Coords) (a2 : Memref sig .tc .vmem S1024x512 .f32) (h2 : a2.IsWhole) (a3 : Memref sig .tc .vmem S512x512 .f32) (h3 : a3.IsWhole) (a4 : Memref sig .tc .vmem S512x512 .f32) (h4 : a4.IsWhole) (a5 : Memref sig .tc .vmem S1x512 .f32) (h5 : a5.IsWhole) (a6 : Memref sig .tc .vmem S1x512 .f32) (h6 : a6.IsWhole) (a7 : Memref sig .tc .vmem S1024x512 .f32) (h7 : a7.IsWhole) (a8 : Memref sig .tc .vmem S1024x512 .f32) (h8 : a8.IsWhole) (a9 : Memref sig .tc .vmem S1024x1 .f32) (h9 : a9.IsWhole) (hc0 : ¬cond0_0 i) (hc1 : cond0_1 i) (x0 : Vec F S1024x512 .f32) (x1 : Vec F S512x512 .f32) (x2 : Vec F S512x512 .f32) (x3 : Vec F S1x512 .f32) (x4 : Vec F S1x512 .f32) (xs0 : Vec F S1024x512 .f32) (xs1 : Vec F S1024x1 .f32) :
    sout0_C_0 c i a2 h2 a3 h3 a4 h4 a5 h5 a6 h6 a7 h7 a8 h8 a9 h9 hc0 hc1 x0 x1 x2 x3 x4 xs0 xs1 = k0_pay2 x2 (k0_pay6 x0 x1 x4 x3) xs0 := by
  unfold sout0_C_0
  rw [View.read_writes_eq_canon _ _ _ (scover0_C_0 c i a2 h2 a3 h3 a4 h4 a5 h5 a6 h6 a7 h7 a8 h8 a9 h9 hc0 hc1 x0 x1 x2 x3 x4 xs0 xs1)]
  unfold kernelRun0_C
  dsimp only
  sl_unfold_words
  rw [View.canon_unit_zero hz]
  simp only [View.readAt_eq_ld, h2.read_unread, h3.read_unread, h4.read_unread, h5.read_unread, h6.read_unread, h7.read_unread, h8.read_unread, h9.read_unread, View.ld_unit_zero (S := S1024x512) hz, View.ld_unit_zero (S := S512x512) hz, View.ld_unit_zero (S := S1x512) hz, View.ld_unit_zero (S := S1024x1) hz]

/-- Case C: the running sum of weights ends at what it held plus the tile's row sums. -/
theorem sumwC (c : Dev nD) (i : grid0.Coords) (a2 : Memref sig .tc .vmem S1024x512 .f32) (h2 : a2.IsWhole) (a3 : Memref sig .tc .vmem S512x512 .f32) (h3 : a3.IsWhole) (a4 : Memref sig .tc .vmem S512x512 .f32) (h4 : a4.IsWhole) (a5 : Memref sig .tc .vmem S1x512 .f32) (h5 : a5.IsWhole) (a6 : Memref sig .tc .vmem S1x512 .f32) (h6 : a6.IsWhole) (a7 : Memref sig .tc .vmem S1024x512 .f32) (h7 : a7.IsWhole) (a8 : Memref sig .tc .vmem S1024x512 .f32) (h8 : a8.IsWhole) (a9 : Memref sig .tc .vmem S1024x1 .f32) (h9 : a9.IsWhole) (hc0 : ¬cond0_0 i) (hc1 : cond0_1 i) (x0 : Vec F S1024x512 .f32) (x1 : Vec F S512x512 .f32) (x2 : Vec F S512x512 .f32) (x3 : Vec F S1x512 .f32) (x4 : Vec F S1x512 .f32) (xs0 : Vec F S1024x512 .f32) (xs1 : Vec F S1024x1 .f32) :
    sout0_C_1 c i a2 h2 a3 h3 a4 h4 a5 h5 a6 h6 a7 h7 a8 h8 a9 h9 hc0 hc1 x0 x1 x2 x3 x4 xs0 xs1 = k0_pay1 xs1 (k0_pay7 x0 x1 x4 x3) := by
  unfold sout0_C_1
  rw [View.read_writes_eq_canon _ _ _ (scover0_C_1 c i a2 h2 a3 h3 a4 h4 a5 h5 a6 h6 a7 h7 a8 h8 a9 h9 hc0 hc1 x0 x1 x2 x3 x4 xs0 xs1)]
  unfold kernelRun0_C
  dsimp only
  sl_unfold_words
  rw [View.canon_unit_zero hz]
  simp only [View.readAt_eq_ld, h2.read_unread, h3.read_unread, h4.read_unread, h5.read_unread, h6.read_unread, h7.read_unread, h8.read_unread, h9.read_unread, View.ld_unit_zero (S := S1024x512) hz, View.ld_unit_zero (S := S512x512) hz, View.ld_unit_zero (S := S1x512) hz, View.ld_unit_zero (S := S1024x1) hz]

/-- The last tile: the result block is the quotient of the two running buffers as this point leaves them. -/
theorem outC (c : Dev nD) (i : grid0.Coords) (a2 : Memref sig .tc .vmem S1024x512 .f32) (h2 : a2.IsWhole) (a3 : Memref sig .tc .vmem S512x512 .f32) (h3 : a3.IsWhole) (a4 : Memref sig .tc .vmem S512x512 .f32) (h4 : a4.IsWhole) (a5 : Memref sig .tc .vmem S1x512 .f32) (h5 : a5.IsWhole) (a6 : Memref sig .tc .vmem S1x512 .f32) (h6 : a6.IsWhole) (a7 : Memref sig .tc .vmem S1024x512 .f32) (h7 : a7.IsWhole) (a8 : Memref sig .tc .vmem S1024x512 .f32) (h8 : a8.IsWhole) (a9 : Memref sig .tc .vmem S1024x1 .f32) (h9 : a9.IsWhole) (hc0 : ¬cond0_0 i) (hc1 : cond0_1 i) (x0 : Vec F S1024x512 .f32) (x1 : Vec F S512x512 .f32) (x2 : Vec F S512x512 .f32) (x3 : Vec F S1x512 .f32) (x4 : Vec F S1x512 .f32) (xs0 : Vec F S1024x512 .f32) (xs1 : Vec F S1024x1 .f32) :
    out0_C_5 c i a2 h2 a3 h3 a4 h4 a5 h5 a6 h6 a7 h7 a8 h8 a9 h9 hc0 hc1 x0 x1 x2 x3 x4 xs0 xs1
      = k0_pay3 (k0_pay2 x2 (k0_pay6 x0 x1 x4 x3) xs0) (k0_pay1 xs1 (k0_pay7 x0 x1 x4 x3)) := by
  unfold out0_C_5
  rw [View.read_writes_eq_canon _ _ _ (cover0_C_5 c i a2 h2 a3 h3 a4 h4 a5 h5 a6 h6 a7 h7 a8 h8 a9 h9 hc0 hc1 x0 x1 x2 x3 x4 xs0 xs1)]
  unfold kernelRun0_C
  dsimp only
  sl_unfold_words
  rw [View.canon_unit_zero hz]
  simp only [View.readAt_eq_ld, h2.read_unread, h3.read_unread, h4.read_unread, h5.read_unread, h6.read_unread, h7.read_unread, h8.read_unread, h9.read_unread, View.ld_unit_zero (S := S1024x512) hz, View.ld_unit_zero (S := S512x512) hz, View.ld_unit_zero (S := S1x512) hz, View.ld_unit_zero (S := S1024x1) hz, View.readCov_unit_zero (S := S1024x512) _ hz, View.readCov_unit_zero (S := S1024x1) _ hz]

/-- The first tile: the running weighted sum is reset to zero and then takes the tile's contribution. -/
theorem accA (c : Dev nD) (i : grid0.Coords) (a2 : Memref sig .tc .vmem S1024x512 .f32) (h2 : a2.IsWhole) (a3 : Memref sig .tc .vmem S512x512 .f32) (h3 : a3.IsWhole) (a4 : Memref sig .tc .vmem S512x512 .f32) (h4 : a4.IsWhole) (a5 : Memref sig .tc .vmem S1x512 .f32) (h5 : a5.IsWhole) (a6 : Memref sig .tc .vmem S1x512 .f32) (h6 : a6.IsWhole) (a7 : Memref sig .tc .vmem S1024x512 .f32) (h7 : a7.IsWhole) (a8 : Memref sig .tc .vmem S1024x512 .f32) (h8 : a8.IsWhole) (a9 : Memref sig .tc .vmem S1024x1 .f32) (h9 : a9.IsWhole) (hc0 : cond0_0 i) (hc1 : ¬cond0_1 i) (x0 : Vec F S1024x512 .f32) (x1 : Vec F S512x512 .f32) (x2 : Vec F S512x512 .f32) (x3 : Vec F S1x512 .f32) (x4 : Vec F S1x512 .f32) :
    sout0_A_0 c i a2 h2 a3 h3 a4 h4 a5 h5 a6 h6 a7 h7 a8 h8 a9 h9 hc0 hc1 x0 x1 x2 x3 x4 = k0_pay2 x2 (k0_pay6 x0 x1 x4 x3) (k0_pay4 (F := F)) := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  sl_unfold_words
  rw [View.canon_cons_unit_zero (S := S1024x512) hz, View.readCov_unit_zero (S := S1024x512) _ hz]
  simp only [View.readAt_eq_ld, h2.read_unread, h3.read_unread, h4.read_unread, h5.read_unread, h6.read_unread, h7.read_unread, h8.read_unread, h9.read_unread, View.ld_unit_zero (S := S1024x512) hz, View.ld_unit_zero (S := S512x512) hz, View.ld_unit_zero (S := S1x512) hz, View.ld_unit_zero (S := S1024x1) hz]

/-- The first tile: the running sum of weights is reset to zero and then takes the tile's row sums. -/
theorem sumwA (c : Dev nD) (i : grid0.Coords) (a2 : Memref sig .tc .vmem S1024x512 .f32) (h2 : a2.IsWhole) (a3 : Memref sig .tc .vmem S512x512 .f32) (h3 : a3.IsWhole) (a4 : Memref sig .tc .vmem S512x512 .f32) (h4 : a4.IsWhole) (a5 : Memref sig .tc .vmem S1x512 .f32) (h5 : a5.IsWhole) (a6 : Memref sig .tc .vmem S1x512 .f32) (h6 : a6.IsWhole) (a7 : Memref sig .tc .vmem S1024x512 .f32) (h7 : a7.IsWhole) (a8 : Memref sig .tc .vmem S1024x512 .f32) (h8 : a8.IsWhole) (a9 : Memref sig .tc .vmem S1024x1 .f32) (h9 : a9.IsWhole) (hc0 : cond0_0 i) (hc1 : ¬cond0_1 i) (x0 : Vec F S1024x512 .f32) (x1 : Vec F S512x512 .f32) (x2 : Vec F S512x512 .f32) (x3 : Vec F S1x512 .f32) (x4 : Vec F S1x512 .f32) :
    sout0_A_1 c i a2 h2 a3 h3 a4 h4 a5 h5 a6 h6 a7 h7 a8 h8 a9 h9 hc0 hc1 x0 x1 x2 x3 x4 = k0_pay1 (k0_pay5 (F := F)) (k0_pay7 x0 x1 x4 x3) := by
  unfold sout0_A_1
  rw [View.read_writes_eq_canon _ _ _ (scover0_A_1 c i a2 h2 a3 h3 a4 h4 a5 h5 a6 h6 a7 h7 a8 h8 a9 h9 hc0 hc1 x0 x1 x2 x3 x4)]
  unfold kernelRun0_A
  dsimp only
  sl_unfold_words
  rw [View.canon_cons_unit_zero (S := S1024x1) hz, View.readCov_unit_zero (S := S1024x1) _ hz]
  simp only [View.readAt_eq_ld, h2.read_unread, h3.read_unread, h4.read_unread, h5.read_unread, h6.read_unread, h7.read_unread, h8.read_unread, h9.read_unread, View.ld_unit_zero (S := S1024x512) hz, View.ld_unit_zero (S := S512x512) hz, View.ld_unit_zero (S := S1x512) hz, View.ld_unit_zero (S := S1024x1) hz]

end Cert.KernelIdeal.Pieces

end
-- ==== Proof.KPayload.lean ====
/-
  What each store of the kernel body writes, read at ONE index over the extended reals, as a function of the blocks the
  body loaded. For a row block `xb` (1024 × 512), a tile of positions `pb` and of values `vb` (512 × 512), the tile's
  squared position norms `psb` and temperatures `tb` (1 × 512 each):
    • the weight block at (p, q) is the weight of the row's squared norm ∑ d, xb p d², the tile entry's squared norm,
      their inner product ∑ d, xb p d · pb q d, and the entry's temperature;
    • its row sums, the running sum of weights plus a row sum, the running weighted sum plus the tile's contribution
      ∑ q, w p q · vb q d, and the final quotient by the running sum of weights plus the small offset;
    • the two reset values are zero.
  A change of float format is the identity on the extended reals, a matrix product into a zero accumulator is the plain
  sum of products, a lane reduction the plain sum, and `0 - x` is `-x`.
-/
import proofs.«145345_j18339510354278_1_alg».proof.Proof.Gen.KernelIdeal.Skeleton
import proofs.«145345_j18339510354278_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-! ## Layout operations read at an index -/

/-- A vector of `a` entries laid out as a column `[a, 1]` reads, at `(i, u)`, entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` lanes reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the lanes of a 1024 × 512 block, read at row `p`. -/
theorem laneSum_apply (src : FVec Ideal S1024x512 .f32) (p : Fin 1024) :
    multiReduction .add [1] S1024 src 0x00000000#32 reduces_S1024x512_S1024 (.inl rfl) rfl (ix1 p)
      = ∑ k : Fin 512, src (ix2 p k) := by
  refine (Ideal.multiReduction_add_single src 0x00000000#32 reduces_S1024x512_S1024 (.inl rfl) rfl (ix1 p)).trans ?_
  refine Finset.sum_congr rfl fun k _ => congrArg src ?_
  funext a; refine Fin.ext ?_
  match a with
  | ⟨0, _⟩ => rfl
  | ⟨1, _⟩ => rfl

/-! ## The two matrix products into a zero accumulator -/

/-! The product that contracts the second axis of both operands: its operand indices, one axis at a time. -/
theorem lhs_rowsByRows_0 (i : S1024x512.Idx) (q : dot_S1024x512_S512x512_S1024x512_1_1_0_0_n_n.contr.Idx) :
    (dot_S1024x512_S512x512_S1024x512_1_1_0_0_n_n.lhsIdx i q 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
theorem lhs_rowsByRows_1 (i : S1024x512.Idx) (q : dot_S1024x512_S512x512_S1024x512_1_1_0_0_n_n.contr.Idx) :
    (dot_S1024x512_S512x512_S1024x512_1_1_0_0_n_n.lhsIdx i q 1).val = (q ⟨0, by decide⟩).val :=
  dot_S1024x512_S512x512_S1024x512_1_1_0_0_n_n.lhsIdx_val_of_single rfl i q
theorem rhs_rowsByRows_0 (i : S1024x512.Idx) (q : dot_S1024x512_S512x512_S1024x512_1_1_0_0_n_n.contr.Idx) :
    (dot_S1024x512_S512x512_S1024x512_1_1_0_0_n_n.rhsIdx i q 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
theorem rhs_rowsByRows_1 (i : S1024x512.Idx) (q : dot_S1024x512_S512x512_S1024x512_1_1_0_0_n_n.contr.Idx) :
    (dot_S1024x512_S512x512_S1024x512_1_1_0_0_n_n.rhsIdx i q 1).val = (q ⟨0, by decide⟩).val :=
  dot_S1024x512_S512x512_S1024x512_1_1_0_0_n_n.rhsIdx_val_of_single rfl i q
/-- Rows against rows: entry `(p, c)` is the inner product of row `p` of the left operand and row `c` of the right one. -/
theorem matmul_rowsByRows_apply (l : FVec Ideal S1024x512 .bf16) (r : FVec Ideal S512x512 .bf16) (p : Fin 1024) (c : Fin 512) :
    matmul dot_S1024x512_S512x512_S1024x512_1_1_0_0_n_n none l r (constant (F := Ideal) S1024x512 .f32 0x00000000#32) (ix2 p c)
      = ∑ k : Fin 512, l (ix2 p k) * r (ix2 c k) := by
  refine (Ideal.matmul_constant_zero_apply dot_S1024x512_S512x512_S1024x512_1_1_0_0_n_n none l r (ix2 p c)).trans ?_
  rw [← Equiv.sum_comp (ValueIdx.contrEquiv1 dot_S1024x512_S512x512_S1024x512_1_1_0_0_n_n 512 rfl rfl).symm]
  refine Finset.sum_congr rfl fun k _ => ?_
  have hk := ValueIdx.contrEquiv1_symm_val dot_S1024x512_S512x512_S1024x512_1_1_0_0_n_n 512 rfl rfl k
  have el : dot_S1024x512_S512x512_S1024x512_1_1_0_0_n_n.lhsIdx (ix2 p c) ((ValueIdx.contrEquiv1 dot_S1024x512_S512x512_S1024x512_1_1_0_0_n_n 512 rfl rfl).symm k) = ix2 p k := funext fun a => Fin.ext (by
    match a with
    | ⟨0, _⟩ => exact lhs_rowsByRows_0 _ _
    | ⟨1, _⟩ => exact (lhs_rowsByRows_1 _ _).trans hk)
  have er : dot_S1024x512_S512x512_S1024x512_1_1_0_0_n_n.rhsIdx (ix2 p c) ((ValueIdx.contrEquiv1 dot_S1024x512_S512x512_S1024x512_1_1_0_0_n_n 512 rfl rfl).symm k) = ix2 c k := funext fun a => Fin.ext (by
    match a with
    | ⟨0, _⟩ => exact rhs_rowsByRows_0 _ _
    | ⟨1, _⟩ => exact (rhs_rowsByRows_1 _ _).trans hk)
  rw [el, er]

/-! The ordinary product (rows against columns): its operand indices, one axis at a time. -/
theorem lhs_rowsByCols_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_rowsByCols_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_rowsByCols_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_rowsByCols_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl
/-- Rows against columns: entry `(p, c)` is the sum over `k` of the left operand at `(p, k)` times the right one at `(k, c)`. -/
theorem matmul_rowsByCols_apply (l : FVec Ideal S1024x512 .bf16) (r : FVec Ideal S512x512 .bf16) (p : Fin 1024) (c : Fin 512) :
    matmul dot_S1024x512_S512x512_S1024x512_1_0_0_1_n_n none l r (constant (F := Ideal) S1024x512 .f32 0x00000000#32) (ix2 p c)
      = ∑ k : Fin 512, l (ix2 p k) * r (ix2 k c) := by
  refine (Ideal.matmul_constant_zero_apply dot_S1024x512_S512x512_S1024x512_1_0_0_1_n_n none l r (ix2 p c)).trans ?_
  rw [← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p c) ((ValueIdx.contrEquiv1 dot_S1024x512_S512x512_S1024x512_1_0_0_1_n_n 512 rfl rfl).symm k) = ix2 p k := funext fun a => Fin.ext (by
    match a with
    | ⟨0, _⟩ => exact lhs_rowsByCols_0 _ _
    | ⟨1, _⟩ => exact (lhs_rowsByCols_1 _ _).trans hk)
  have er : dot_S1024x512_S512x512_S1024x512_1_0_0_1_n_n.rhsIdx (ix2 p c) ((ValueIdx.contrEquiv1 dot_S1024x512_S512x512_S1024x512_1_0_0_1_n_n 512 rfl rfl).symm k) = ix2 k c := funext fun a => Fin.ext (by
    match a with
    | ⟨0, _⟩ => exact (rhs_rowsByCols_0 _ _).trans hk
    | ⟨1, _⟩ => exact rhs_rowsByCols_1 _ _)
  rw [el, er]

/-- The squared norm of row `p`, as the body forms it (lane sum of the squares, laid out as a column and spread over
    the lanes), read at `(p, q)`. -/
theorem sqNorm_at (xb : FVec Ideal S1024x512 .f32) (p : Fin 1024) (q : Fin 512) :
    broadcastTo S1024x512
        (shapeCast S1024x1
          (multiReduction .add [1] S1024 (mulf xb xb) 0x00000000#32 reduces_S1024x512_S1024 (.inl rfl) rfl)
          shapeCasts_S1024_S1024x1)
        broadcasts_S1024x1_S1024x512 (ix2 p q)
      = ∑ d : Fin 512, xb (ix2 p d) * xb (ix2 p d) :=
  (broadcastTo_a1_ab_apply _ broadcasts_S1024x1_S1024x512 p q).trans
    ((shapeCast_a_a1_apply _ shapeCasts_S1024_S1024x1 p 0).trans (laneSum_apply (mulf xb xb) p))

/-! ## The seven payloads -/

/-- The weight block at (p, q). -/
theorem weight_at (xb : FVec Ideal S1024x512 .f32) (pb : FVec Ideal S512x512 .f32) (psb tb : FVec Ideal S1x512 .f32)
    (p : Fin 1024) (q : Fin 512) :
    k0_pay6 (F := Ideal) xb pb psb tb (ix2 p q)
      = Cert.Rbf.wt (∑ d : Fin 512, xb (ix2 p d) * xb (ix2 p d)) (psb (ix2 (0 : Fin 1) q))
          (∑ d : Fin 512, xb (ix2 p d) * pb (ix2 q d)) (tb (ix2 (0 : Fin 1) q)) := by
  have hA := sqNorm_at xb p q
  have hB := broadcastTo_1b_ab_apply psb broadcasts_S1x512_S1024x512 p q
  have hM := matmul_rowsByRows_apply (truncf .bf16 xb bitsLt_bf16_f32) (truncf .bf16 pb bitsLt_bf16_f32) p q
  have hT := broadcastTo_1b_ab_apply (addf (absf tb) (broadcast S1x512 (Scalar.ofBits .f32 0x3DCCCCCD#32)))
    broadcasts_S1x512_S1024x512 p q
  unfold k0_pay6
  simp only [shapeCast_self]
  show Ideal.exp (Ideal.div (Ideal.ofBits .f32 0x00000000#32
      - Ideal.sqrt (max (_ + _ - Cert.Rbf.two * _) (Ideal.ofBits .f32 0x00000000#32))) _) = _
  rw [hA, hB, hM, hT, Ideal.ofBits_zero_f32, zero_sub]
  rfl

/-- The weight block's row sums. -/
theorem rowsum_at (xb : FVec Ideal S1024x512 .f32) (pb : FVec Ideal S512x512 .f32) (psb tb : FVec Ideal S1x512 .f32)
    (p : Fin 1024) :
    k0_pay7 (F := Ideal) xb pb psb tb (ix1 p) = ∑ q : Fin 512, k0_pay6 (F := Ideal) xb pb psb tb (ix2 p q) := by
  unfold k0_pay7
  exact laneSum_apply (k0_pay6 (F := Ideal) xb pb psb tb) p

/-- The running sum of weights after a tile: what it held plus the tile's row sum. -/
theorem sumw_step_at (s : FVec Ideal S1024x1 .f32) (rs : FVec Ideal S1024 .f32) (p : Fin 1024) :
    k0_pay1 (F := Ideal) s rs (ix2 p (0 : Fin 1)) = s (ix2 p (0 : Fin 1)) + rs (ix1 p) := by
  unfold k0_pay1
  rw [shapeCast_self]
  exact congrArg (s (ix2 p (0 : Fin 1)) + ·) (shapeCast_a_a1_apply rs shapeCasts_S1024_S1024x1 p 0)

/-- The running weighted sum after a tile: what it held plus the tile's weights times the tile's values. -/
theorem acc_step_at (vb : FVec Ideal S512x512 .f32) (w : FVec Ideal S1024x512 .f32) (acc : FVec Ideal S1024x512 .f32)
    (p : Fin 1024) (d : Fin 512) :
    k0_pay2 (F := Ideal) vb w acc (ix2 p d) = acc (ix2 p d) + ∑ q : Fin 512, w (ix2 p q) * vb (ix2 q d) := by
  unfold k0_pay2
  rw [shapeCast_self]
  exact congrArg (acc (ix2 p d) + ·)
    (matmul_rowsByCols_apply (truncf .bf16 w bitsLt_bf16_f32) (truncf .bf16 vb bitsLt_bf16_f32) p d)

/-- The result block: the weighted sum over the sum of weights plus the small offset. -/
theorem quotient_at (acc : FVec Ideal S1024x512 .f32) (s : FVec Ideal S1024x1 .f32) (p : Fin 1024) (d : Fin 512) :
    k0_pay3 (F := Ideal) acc s (ix2 p d) = Ideal.div (acc (ix2 p d)) (s (ix2 p (0 : Fin 1)) + Cert.Rbf.eps) := by
  unfold k0_pay3
  exact congrArg (Ideal.div (acc (ix2 p d)))
    (broadcastTo_a1_ab_apply (addf s (broadcast S1024x1 (Scalar.ofBits .f32 0x322BCC77#32)))
      broadcasts_S1024x1_S1024x512 p d)

/-- The two reset values are zero everywhere. -/
theorem zero_acc_at (j : S1024x512.Idx) : k0_pay4 (F := Ideal) j = 0 := by
  unfold k0_pay4
  rw [shapeCast_self]
  exact Ideal.ofBits_zero_f32

theorem zero_sumw_at (j : S1024x1.Idx) : k0_pay5 (F := Ideal) j = 0 := by
  unfold k0_pay5
  rw [shapeCast_self]
  exact Ideal.ofBits_zero_f32

end Cert.KernelIdeal.Pay

end
-- ==== Proof.KBlocks.lean ====
/-
  The blocks the kernel body is handed at a grid point, as the inputs at global coordinates. The grid has 16 × 8 points;
  point `t` works on row block `t / 8` (1024 rows) and codebook tile `t % 8` (512 entries). Before the region the host
  lays the queries out as 16384 rows, squares and sums the positions along their last axis, and lays that sum and the
  temperatures out as single rows of 4096. So at point `t`
    the row block at (p, d) is the query row 1024 · (t / 8) + p at d,
    the position and value tiles at (q, d) are codebook entry 512 · (t % 8) + q at d,
    the temperature tile at q is that entry's temperature, and the squared-norm tile at q is ∑ d, (position entry)² —
  the host's sum starts from the zero word, which is the extended real 0.
-/
import proofs.«145345_j18339510354278_1_alg».proof.Proof.Gen.KernelIdeal.Frame
import proofs.«145345_j18339510354278_1_alg».proof.Proof.Spec
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen Cert.Rbf

variable (m : (ℓ : Loc nD τ sig) → Buf (Elt Ideal) ℓ)

/-- The four inputs as functions of their coordinates: the query rows as the host's first reshape lays them out. -/
def Xk (c : Dev nD) (r : Fin 16384) (d : Fin 512) : EReal :=
  (shapeCast S16384x512 (m ((c : Thread nD τ).loc main_arg0)) shapeCasts_S8x2048x512_S16384x512 : FVec Ideal S16384x512 .f32) (ix2 r d)
def Pk (c : Dev nD) (n : Fin 4096) (d : Fin 512) : EReal :=
  (m ((c : Thread nD τ).loc main_arg1) : FVec Ideal S4096x512 .f32) (ix2 n d)
def Vk (c : Dev nD) (n : Fin 4096) (d : Fin 512) : EReal :=
  (m ((c : Thread nD τ).loc main_arg2) : FVec Ideal S4096x512 .f32) (ix2 n d)
def Tk (c : Dev nD) (n : Fin 4096) : EReal :=
  (m ((c : Thread nD τ).loc main_arg3) : FVec Ideal S4096 .f32) (ix1 n)

/-! ## The arrays as the region finds them -/

theorem V_v0 (c : Dev nD) : (V m c main_v0 : FVec Ideal S16384x512 .f32)
    = shapeCast S16384x512 (m ((c : Thread nD τ).loc main_arg0)) shapeCasts_S8x2048x512_S16384x512 := by
  show StableHlo.after hostOps0 (fun b => m (c, b)) (Proc.devRef .tc main_v0) = _
  after_results; rfl

theorem V_v4 (c : Dev nD) : (V m c main_v4 : FVec Ideal S1x4096 .f32)
    = shapeCast S1x4096 (m ((c : Thread nD τ).loc main_arg3)) shapeCasts_S4096_S1x4096 := by
  show StableHlo.after hostOps0 (fun b => m (c, b)) (Proc.devRef .tc main_v4) = _
  after_results; rfl

theorem V_v3 (c : Dev nD) : (V m c main_v3 : FVec Ideal S1x4096 .f32)
    = shapeCast S1x4096 (Host.reduceAdd (F := Ideal) (mulf (m ((c : Thread nD τ).loc main_arg1)) (m ((c : Thread nD τ).loc main_arg1)))
        (constant (F := Ideal) S_ .f32 0x00000000#32) reducesTo_S4096x512_S4096_d1 h_S_) shapeCasts_S4096_S1x4096 := by
  show StableHlo.after hostOps0 (fun b => m (c, b)) (Proc.devRef .tc main_v3) = _
  after_results; rfl

/-! ## The index maps, decided over the grid -/

theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val % 8 ∧ win0_2.index t (1 : Fin 2) = 0
    ∧ win0_3.index t (0 : Fin 2) = 0 ∧ win0_3.index t (1 : Fin 2) = t.val % 8
    ∧ win0_4.index t (0 : Fin 2) = 0 ∧ win0_4.index t (1 : Fin 2) = t.val % 8
    ∧ win0_5.index t (0 : Fin 2) = t.val / 8 ∧ win0_5.index t (1 : Fin 2) = 0 :=
  (by decide +kernel : ∀ t : Fin grid0.N, _)

/-! ## Each window's block at a point -/

/-- The row block. -/
abbrev xb (c : Dev nD) (t : Fin cfg0.N) : FVec Ideal S1024x512 .f32 := iblk m c 0 t
/-- The tile of positions. -/
abbrev pb (c : Dev nD) (t : Fin cfg0.N) : FVec Ideal S512x512 .f32 := iblk m c 1 t
/-- The tile of values. -/
abbrev vb (c : Dev nD) (t : Fin cfg0.N) : FVec Ideal S512x512 .f32 := iblk m c 2 t
/-- The tile of temperatures. -/
abbrev tb (c : Dev nD) (t : Fin cfg0.N) : FVec Ideal S1x512 .f32 := iblk m c 3 t
/-- The tile of squared position norms. -/
abbrev psb (c : Dev nD) (t : Fin cfg0.N) : FVec Ideal S1x512 .f32 := iblk m c 4 t

theorem xb_at (c : Dev nD) (t : Fin cfg0.N) (p : Fin 1024) (d : Fin 512) :
    xb m c t (ix2 p d) = Xk m c (rowOf (t.val / 8) p) d := by
  obtain ⟨e0, e1, -⟩ := idx_facts t
  have hN : t.val < 128 := lt_of_lt_of_eq t.isLt (show cfg0.N = 128 from N_0)
  show V m c main_v0 (((cfg0.win 0).blk t).view.emb (ix2 p d)) = _
  rw [V_v0]; unfold Xk
  refine congrArg _ (funext fun a => Fin.ext ?_)
  match a with
  | ⟨0, _⟩ => show win0_0.index t (0 : Fin 2) * 1024 + 1 * p.val = (rowOf (t.val / 8) p).val; rw [e0, rowOf_val (by omega)]; omega
  | ⟨1, _⟩ => show win0_0.index t (1 : Fin 2) * 512 + 1 * d.val = d.val; rw [e1]; omega

theorem pb_at (c : Dev nD) (t : Fin cfg0.N) (q : Fin 512) (d : Fin 512) :
    pb m c t (ix2 q d) = Pk m c (tile (t.val % 8) q) d := by
  obtain ⟨-, -, e0, e1, -⟩ := idx_facts t
  show V m c main_arg1 (((cfg0.win 1).blk t).view.emb (ix2 q d)) = _
  rw [V_main_arg1]; unfold Pk
  refine congrArg _ (funext fun a => Fin.ext ?_)
  match a with
  | ⟨0, _⟩ => show win0_1.index t (0 : Fin 2) * 512 + 1 * q.val = (tile (t.val % 8) q).val; rw [e0, tile_val (by omega)]; omega
  | ⟨1, _⟩ => show win0_1.index t (1 : Fin 2) * 512 + 1 * d.val = d.val; rw [e1]; omega

theorem vb_at (c : Dev nD) (t : Fin cfg0.N) (q : Fin 512) (d : Fin 512) :
    vb m c t (ix2 q d) = Vk m c (tile (t.val % 8) q) d := by
  obtain ⟨-, -, -, -, e0, e1, -⟩ := idx_facts t
  show V m c main_arg2 (((cfg0.win 2).blk t).view.emb (ix2 q d)) = _
  rw [V_main_arg2]; unfold Vk
  refine congrArg _ (funext fun a => Fin.ext ?_)
  match a with
  | ⟨0, _⟩ => show win0_2.index t (0 : Fin 2) * 512 + 1 * q.val = (tile (t.val % 8) q).val; rw [e0, tile_val (by omega)]; omega
  | ⟨1, _⟩ => show win0_2.index t (1 : Fin 2) * 512 + 1 * d.val = d.val; rw [e1]; omega

/-- The host's sum of squares along a position's coordinates, read at one codebook entry: it starts from the zero word. -/
theorem rowNormSq (P : FVec Ideal S4096x512 .f32) (n : Fin 4096) :
    Host.reduceAdd (F := Ideal) (mulf P P) (constant (F := Ideal) S_ .f32 0x00000000#32) reducesTo_S4096x512_S4096_d1 h_S_ (ix1 n)
      = ∑ d : Fin 512, P (ix2 n d) * P (ix2 n d) := by
  have hR : S4096x512.Reduces [1] S4096 := by decide
  simp only [Host.reduceAdd, Ideal.hostReduceAdd_def]
  rw [Ideal.hostReduceAdd_single reducesTo_S4096x512_S4096_d1 hR]
  show Ideal.ofBits .f32 0x00000000#32 + _ = _
  rw [Ideal.ofBits_zero_f32, zero_add]
  refine Finset.sum_congr rfl fun k _ => ?_
  have e : hR.lift (ix1 n) k = ix2 n k := funext fun a => Fin.ext (by match a with | ⟨0, _⟩ => rfl | ⟨1, _⟩ => rfl)
  rw [e]
  rfl

theorem tb_at (c : Dev nD) (t : Fin cfg0.N) (q : Fin 512) :
    tb m c t (ix2 (0 : Fin 1) q) = Tk m c (tile (t.val % 8) q) := by
  obtain ⟨-, -, -, -, -, -, e0, e1, -⟩ := idx_facts t
  show V m c main_v4 (((cfg0.win 3).blk t).view.emb (ix2 (0 : Fin 1) q)) = _
  rw [V_v4]; unfold Tk
  have hidx : ((cfg0.win 3).blk t).view.emb (ix2 (0 : Fin 1) q) = ix2 (0 : Fin 1) (tile (t.val % 8) q) :=
    funext fun a => Fin.ext (by
      match a with
      | ⟨0, _⟩ => show win0_3.index t (0 : Fin 2) * 1 + 1 * 0 = 0; rw [e0]
      | ⟨1, _⟩ => show win0_3.index t (1 : Fin 2) * 512 + 1 * q.val = (tile (t.val % 8) q).val; rw [e1, tile_val (by omega)]; omega)
  rw [hidx]
  exact shapeCast_a_1a_apply _ shapeCasts_S4096_S1x4096 (0 : Fin 1) (tile (t.val % 8) q)

theorem psb_at (c : Dev nD) (t : Fin cfg0.N) (q : Fin 512) :
    psb m c t (ix2 (0 : Fin 1) q)
      = ∑ d : Fin 512, Pk m c (tile (t.val % 8) q) d * Pk m c (tile (t.val % 8) q) d := by
  obtain ⟨-, -, -, -, -, -, -, -, e0, e1, -⟩ := idx_facts t
  show V m c main_v3 (((cfg0.win 4).blk t).view.emb (ix2 (0 : Fin 1) q)) = _
  rw [V_v3]
  have hidx : ((cfg0.win 4).blk t).view.emb (ix2 (0 : Fin 1) q) = ix2 (0 : Fin 1) (tile (t.val % 8) q) :=
    funext fun a => Fin.ext (by
      match a with
      | ⟨0, _⟩ => show win0_4.index t (0 : Fin 2) * 1 + 1 * 0 = 0; rw [e0]
      | ⟨1, _⟩ => show win0_4.index t (1 : Fin 2) * 512 + 1 * q.val = (tile (t.val % 8) q).val; rw [e1, tile_val (by omega)]; omega)
  rw [hidx]
  refine (shapeCast_a_1a_apply _ shapeCasts_S4096_S1x4096 (0 : Fin 1) (tile (t.val % 8) q)).trans ?_
  exact rowNormSq (m ((c : Thread nD τ).loc main_arg1)) (tile (t.val % 8) q)

end Cert.KernelIdeal.Blocks

end
-- ==== Proof.KInvariant.lean ====
/-
  What the two running buffers and the result block hold after each grid point, by induction over the points. Point `t`
  works on row block `t / 8` and codebook tile `t % 8`. After it, for every row `p` of the block,
    the running weighted sum at (p, d) is ∑ over the tiles 0 … t % 8 of ∑ q, w (row, entry) · v (entry, d),
    the running sum of weights at p is ∑ over the same tiles of ∑ q, w (row, entry),
  because the first tile starts from zero and every later tile adds its contribution to what the point before — same row
  block, previous tile — left. At the last tile the eight tile sums are the sum over the whole codebook, and the result
  block is the quotient of the two, which is the result normalised after the weighted sum.
-/
import proofs.«145345_j18339510354278_1_alg».proof.Proof.KPieces
import proofs.«145345_j18339510354278_1_alg».proof.Proof.KPayload
import proofs.«145345_j18339510354278_1_alg».proof.Proof.KBlocks

set_option maxRecDepth 16384

noncomputable section

namespace Cert.KernelIdeal.Inv

open Idealize.ShloMosaic Idealize.ShloMosaic.TcCoe Idealize.SL.Sem Idealize.ShloMosaic.ValueIdx
open Cert.KernelIdeal Cert.KernelIdeal.Gen Cert.KernelIdeal.Blocks Cert.Rbf

variable (m : (ℓ : Loc nD τ sig) → Buf (Elt Ideal) ℓ)

/-- The weights of the point's row block against its tile. -/
abbrev wb (c : Dev nD) (t : Fin cfg0.N) : FVec Ideal S1024x512 .f32 :=
  k0_pay6 (F := Ideal) (xb m c t) (pb m c t) (psb m c t) (tb m c t)

/-- Entry (p, q) of the point's weight block is the weight of query row 1024 · (t / 8) + p for codebook entry 512 · (t % 8) + q. -/
theorem wb_at (c : Dev nD) (t : Fin cfg0.N) (p : Fin 1024) (q : Fin 512) :
    wb m c t (ix2 p q) = W (Xk m c) (Pk m c) (Tk m c) (rowOf (t.val / 8) p) (tile (t.val % 8) q) := by
  refine (Pay.weight_at (xb m c t) (pb m c t) (psb m c t) (tb m c t) p q).trans ?_
  unfold W
  simp only [xb_at, pb_at, psb_at, tb_at]

/-- The tile's contribution to the weighted sum and to the sum of weights. -/
def accTile (c : Dev nD) (i j : ℕ) (p : Fin 1024) (d : Fin 512) : EReal :=
  ∑ q : Fin 512, W (Xk m c) (Pk m c) (Tk m c) (rowOf i p) (tile j q) * Vk m c (tile j q) d
def sumTile (c : Dev nD) (i j : ℕ) (p : Fin 1024) : EReal :=
  ∑ q : Fin 512, W (Xk m c) (Pk m c) (Tk m c) (rowOf i p) (tile j q)

/-- The running buffers after a point, as components of what the run leaves. -/
abbrev accAt (c : Dev nD) (n : ℕ) (hn : n < cfg0.N) : FVec Ideal S1024x512 .f32 := (outsAt0 m c n hn).2.1
abbrev sumwAt (c : Dev nD) (n : ℕ) (hn : n < cfg0.N) : FVec Ideal S1024x1 .f32 := (outsAt0 m c n hn).2.2
abbrev outAt (c : Dev nD) (n : ℕ) (hn : n < cfg0.N) : FVec Ideal S1024x512 .f32 := (outsAt0 m c n hn).1

/-! ## One point -/

/-- First tile: the running weighted sum is the tile's contribution. -/
theorem acc_first (c : Dev nD) (t : Fin cfg0.N) (h0 : t.val % 8 = 0) (p : Fin 1024) (d : Fin 512) :
    accAt m c t.val t.isLt (ix2 p d) = accTile m c (t.val / 8) (t.val % 8) p d := by
  have h1 : ¬t.val % 8 = 7 := by omega
  unfold accAt
  rw [outsAt0_A m c t h0 h1]
  dsimp only
  refine (congrFun (Pieces.accA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) (ix2 p d)).trans ?_
  refine (Pay.acc_step_at (vb m c t) (wb m c t) (k0_pay4 (F := Ideal)) p d).trans ?_
  rw [Pay.zero_acc_at, zero_add]
  unfold accTile
  simp only [wb_at, vb_at]

/-- First tile: the running sum of weights is the tile's row sum. -/
theorem sumw_first (c : Dev nD) (t : Fin cfg0.N) (h0 : t.val % 8 = 0) (p : Fin 1024) :
    sumwAt m c t.val t.isLt (ix2 p (0 : Fin 1)) = sumTile m c (t.val / 8) (t.val % 8) p := by
  have h1 : ¬t.val % 8 = 7 := by omega
  unfold sumwAt
  rw [outsAt0_A m c t h0 h1]
  dsimp only
  refine (congrFun (Pieces.sumwA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) (ix2 p (0 : Fin 1))).trans ?_
  refine (Pay.sumw_step_at (k0_pay5 (F := Ideal)) (k0_pay7 (F := Ideal) (xb m c t) (pb m c t) (psb m c t) (tb m c t)) p).trans ?_
  rw [Pay.zero_sumw_at, zero_add, Pay.rowsum_at]
  unfold sumTile
  exact Finset.sum_congr rfl fun q _ => wb_at m c t p q

/-- A later tile: the running weighted sum is what the point before left plus the tile's contribution. -/
theorem acc_next (c : Dev nD) (t : Fin cfg0.N) (h0 : ¬t.val % 8 = 0) (p : Fin 1024) (d : Fin 512) :
    accAt m c t.val t.isLt (ix2 p d)
      = accAt m c (t.val - 1) (Nat.lt_of_le_of_lt (Nat.sub_le _ _) t.isLt) (ix2 p d) + accTile m c (t.val / 8) (t.val % 8) p d := by
  unfold accAt
  by_cases h1 : t.val % 8 = 7
  ·
    rw [outsAt0_C m c t h0 h1]
    dsimp only
    refine (congrFun (Pieces.accC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) (ix2 p d)).trans ?_
    refine (Pay.acc_step_at (vb m c t) (wb m c t) ((outsAt0 m c (t.val - 1) (Nat.lt_of_le_of_lt (Nat.sub_le _ _) t.isLt)).2.1) p d).trans ?_
    unfold accTile
    simp only [wb_at, vb_at]
  ·
    rw [outsAt0_B m c t h0 h1]
    dsimp only
    refine (congrFun (Pieces.accB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) (ix2 p d)).trans ?_
    refine (Pay.acc_step_at (vb m c t) (wb m c t) ((outsAt0 m c (t.val - 1) (Nat.lt_of_le_of_lt (Nat.sub_le _ _) t.isLt)).2.1) p d).trans ?_
    unfold accTile
    simp only [wb_at, vb_at]

/-- A later tile: the running sum of weights is what the point before left plus the tile's row sum. -/
theorem sumw_next (c : Dev nD) (t : Fin cfg0.N) (h0 : ¬t.val % 8 = 0) (p : Fin 1024) :
    sumwAt m c t.val t.isLt (ix2 p (0 : Fin 1))
      = sumwAt m c (t.val - 1) (Nat.lt_of_le_of_lt (Nat.sub_le _ _) t.isLt) (ix2 p (0 : Fin 1)) + sumTile m c (t.val / 8) (t.val % 8) p := by
  unfold sumwAt
  by_cases h1 : t.val % 8 = 7
  ·
    rw [outsAt0_C m c t h0 h1]
    dsimp only
    refine (congrFun (Pieces.sumwC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) (ix2 p (0 : Fin 1))).trans ?_
    refine (Pay.sumw_step_at ((outsAt0 m c (t.val - 1) (Nat.lt_of_le_of_lt (Nat.sub_le _ _) t.isLt)).2.2) (k0_pay7 (F := Ideal) (xb m c t) (pb m c t) (psb m c t) (tb m c t)) p).trans ?_
    rw [Pay.rowsum_at]
    unfold sumTile
    exact congrArg (_ + ·) (Finset.sum_congr rfl fun q _ => wb_at m c t p q)
  ·
    rw [outsAt0_B m c t h0 h1]
    dsimp only
    refine (congrFun (Pieces.sumwB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) (ix2 p (0 : Fin 1))).trans ?_
    refine (Pay.sumw_step_at ((outsAt0 m c (t.val - 1) (Nat.lt_of_le_of_lt (Nat.sub_le _ _) t.isLt)).2.2) (k0_pay7 (F := Ideal) (xb m c t) (pb m c t) (psb m c t) (tb m c t)) p).trans ?_
    rw [Pay.rowsum_at]
    unfold sumTile
    exact congrArg (_ + ·) (Finset.sum_congr rfl fun q _ => wb_at m c t p q)

/-- The last tile: the result block is the quotient of the two running buffers as the point leaves them. -/
theorem out_last (c : Dev nD) (t : Fin cfg0.N) (h1 : t.val % 8 = 7) (p : Fin 1024) (d : Fin 512) :
    outAt m c t.val t.isLt (ix2 p d)
      = Ideal.div (accAt m c t.val t.isLt (ix2 p d)) (sumwAt m c t.val t.isLt (ix2 p (0 : Fin 1)) + eps) := by
  have h0 : ¬t.val % 8 = 0 := by omega
  unfold outAt accAt sumwAt
  rw [outsAt0_C m c t h0 h1]
  dsimp only
  rw [Pieces.outC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2,
    Pieces.accC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2,
    Pieces.sumwC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2]
  exact Pay.quotient_at _ _ p d

/-! ## All points -/

/-- After point `n` the running buffers hold the sums over the tiles 0 … n % 8 of row block n / 8. -/
theorem inv (c : Dev nD) : ∀ (n : ℕ) (hn : n < cfg0.N) (p : Fin 1024),
    (∀ d : Fin 512, accAt m c n hn (ix2 p d) = ∑ j ∈ Finset.range (n % 8 + 1), accTile m c (n / 8) j p d)
    ∧ sumwAt m c n hn (ix2 p (0 : Fin 1)) = ∑ j ∈ Finset.range (n % 8 + 1), sumTile m c (n / 8) j p := by
  intro n
  induction n using Nat.strong_induction_on with
  | _ n ih =>
    intro hn p
    by_cases h0 : n % 8 = 0
    · constructor
      · intro d
        have e : accAt m c n hn (ix2 p d) = accTile m c (n / 8) (n % 8) p d := acc_first m c ⟨n, hn⟩ h0 p d
        rw [e, h0, Nat.zero_add, Finset.sum_range_one]
      · have e : sumwAt m c n hn (ix2 p (0 : Fin 1)) = sumTile m c (n / 8) (n % 8) p := sumw_first m c ⟨n, hn⟩ h0 p
        rw [e, h0, Nat.zero_add, Finset.sum_range_one]
    · have hn' : n - 1 < cfg0.N := Nat.lt_of_le_of_lt (Nat.sub_le _ _) hn
      obtain ⟨ihA, ihS⟩ := ih (n - 1) (by omega) hn' p
      have e1 : (n - 1) % 8 + 1 = n % 8 := by omega
      have e2 : (n - 1) / 8 = n / 8 := by omega
      constructor
      · intro d
        have e : accAt m c n hn (ix2 p d) = accAt m c (n - 1) hn' (ix2 p d) + accTile m c (n / 8) (n % 8) p d :=
          acc_next m c ⟨n, hn⟩ h0 p d
        rw [e, ihA d, e1, e2, Finset.sum_range_succ]
      · have e : sumwAt m c n hn (ix2 p (0 : Fin 1)) = sumwAt m c (n - 1) hn' (ix2 p (0 : Fin 1)) + sumTile m c (n / 8) (n % 8) p :=
          sumw_next m c ⟨n, hn⟩ h0 p
        rw [e, ihS, e1, e2, Finset.sum_range_succ]

/-- At a last tile the result block holds the result normalised after the weighted sum, for the block's rows. -/
theorem out_eq (c : Dev nD) (t : Fin cfg0.N) (h1 : t.val % 8 = 7) (p : Fin 1024) (d : Fin 512) :
    outAt m c t.val t.isLt (ix2 p d) = outK (Xk m c) (Pk m c) (Vk m c) (Tk m c) (rowOf (t.val / 8) p) d := by
  obtain ⟨hA, hS⟩ := inv m c t.val t.isLt p
  have h8 : t.val % 8 + 1 = 8 := by omega
  rw [out_last m c t h1 p d, hA d, hS, h8]
  unfold outK
  exact congrArg₂ Ideal.div
    (sum_tiles fun n : Fin 4096 => W (Xk m c) (Pk m c) (Tk m c) (rowOf (t.val / 8) p) n * Vk m c n d)
    (congrArg (· + eps) (sum_tiles fun n : Fin 4096 => W (Xk m c) (Pk m c) (Tk m c) (rowOf (t.val / 8) p) n))

end Cert.KernelIdeal.Inv

end
-- ==== Proof.KFinal.lean ====
/-
  The kernel's whole run, read as values. Only the last tile of a row block writes its result block back, and block
  `t / 8` of the 16384 × 512 result array is rows 1024 · (t / 8) … 1024 · (t / 8) + 1023; the sixteen written blocks tile
  the array, so after the region the array holds, at every (r, d), the result normalised after the weighted sum. The
  host's last operation only re-lays that array out as 8 × 2048 × 512.
-/
import proofs.«145345_j18339510354278_1_alg».proof.Proof.KInvariant

set_option maxRecDepth 16384

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Inv Cert.Rbf

variable (m : (ℓ : Loc nD τ sig) → Buf (Elt Ideal) ℓ) (ρ : Dev nD → PrngReg)

/-- The result array before the last reshape: at (r, d) the result normalised after the weighted sum. -/
def Karr (c : Dev nD) : FVec Ideal S16384x512 .f32 :=
  fun i => outK (Xk m c) (Pk m c) (Vk m c) (Tk m c) (i 0) (i 1)

/-- What a last-tile point writes back is its block of that array. -/
theorem flushed_eq (c : Dev nD) (t : Fin cfg0.N) (hf : (cfg0.win 5).flush t = true) :
    (dats m 0 c).flushed 5 t = ((cfg0.win 5).blk t).view.read (Elt Ideal) (Karr m c) := by
  have h1 : t.val % 8 = 7 := (flush0_5 t).mp hf
  obtain ⟨-, -, -, -, -, -, -, -, -, -, e0, e1⟩ := idx_facts t
  have hN : t.val < 128 := lt_of_lt_of_eq t.isLt (show cfg0.N = 128 from N_0)
  show (cfg0.win 5).cut (grid0.coords t) ((dats m 0 c).after 5 t) = _
  rw [after0_5]
  funext j
  obtain ⟨p, d, rfl⟩ : ∃ (p : Fin 1024) (d : Fin 512), j = ix2 p d := ⟨j 0, j 1, eq_ix2 j⟩
  show outAt m c t.val t.isLt (ix2 p d) = Karr m c (((cfg0.win 5).blk t).view.emb (ix2 p d))
  rw [out_eq m c t h1 p d]
  unfold Karr
  congr 1
  · apply Fin.ext
    show (rowOf (t.val / 8) p).val = win0_5.index t (0 : Fin 2) * 1024 + 1 * p.val
    rw [e0, rowOf_val (by omega)]; omega
  · apply Fin.ext
    show d.val = win0_5.index t (1 : Fin 2) * 512 + 1 * d.val
    rw [e1]; omega

/-- An index of the result array is in point `t`'s block iff each coordinate is in the block's range on its axis. -/
theorem mem_blk (t : Fin cfg0.N) (i : S16384x512.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v5).slice (win0_5.rect t)).set ↔ _
  rw [View.set_slice_whole, Rect.mem_set_unit]
  exact Iff.rfl

/-- The result array after the region. -/
theorem final (c : Dev nD) : (dats m 0 c).arrAt 5 cfg0.N = Karr m c :=
  (dats m 0 c).arrAt_eq_of_cover 5 (Karr m c) (flushed_eq m c) fun i => by
    have hi0 : (i 0).val < 16384 := (i 0).isLt
    have hi1 : (i 1).val < 512 := (i 1).isLt
    have hN : cfg0.N = 128 := N_0
    have htlt : 8 * ((i 0).val / 1024) + 7 < cfg0.N := by rw [hN]; omega
    obtain ⟨-, -, -, -, -, -, -, -, -, -, e0, e1⟩ := idx_facts ⟨8 * ((i 0).val / 1024) + 7, htlt⟩
    refine ⟨⟨8 * ((i 0).val / 1024) + 7, htlt⟩, (flush0_5 _).mpr (by show (8 * ((i 0).val / 1024) + 7) % 8 = 7; omega), ?_⟩
    rw [mem_blk]
    intro a
    match a with
    | ⟨0, _⟩ =>
      show win0_5.index ⟨8 * ((i 0).val / 1024) + 7, htlt⟩ (0 : Fin 2) * 1024 ≤ (i 0).val ∧ (i 0).val < win0_5.index ⟨8 * ((i 0).val / 1024) + 7, htlt⟩ (0 : Fin 2) * 1024 + 1024
      rw [e0]
      show (8 * ((i 0).val / 1024) + 7) / 8 * 1024 ≤ (i 0).val ∧ (i 0).val < (8 * ((i 0).val / 1024) + 7) / 8 * 1024 + 1024
      omega
    | ⟨1, _⟩ =>
      show win0_5.index ⟨8 * ((i 0).val / 1024) + 7, htlt⟩ (1 : Fin 2) * 512 ≤ (i 1).val ∧ (i 1).val < win0_5.index ⟨8 * ((i 0).val / 1024) + 7, htlt⟩ (1 : Fin 2) * 512 + 512
      rw [e1]; omega

/-- The host's last operation reads the result array as the region left it. -/
theorem tail_eq (c : Dev nD) :
    Pipeline.afterTail₀ cfgs (dats m) 0 (V0 m) [hostOps1] c main_v6
      = shapeCast S8x2048x512 (Karr m c) shapeCasts_S16384x512_S8x2048x512 := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5)
      = Karr m c :=
    (Pipeline.withArrays_arr spec0 launch0.win.arr_inj c _ _ 5).trans (final m c)
  rw [hw]
  rfl

/-- The kernel's run at the extended reals: every weakly fair execution ends with the result at the re-laid-out array of
    results normalised after the weighted sum, and the four arguments as launched. -/
theorem run : θ_run defs (onTc (τ := τ) (main (F := Ideal))) ⟨m, fun _ => 0, ρ⟩ fun r => ∀ c : Dev nD,
      r.2.mem ((c.tc : Thread nD τ).loc main_v6) = shapeCast S8x2048x512 (Karr m c) shapeCasts_S16384x512_S8x2048x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Final

end
-- ==== Proof.lean ====
/-
  The certificate of a distance-weighted lookup into a codebook. For query rows x r (16384 rows of 512 numbers), codebook
  positions p n and values v n (4096 entries, 512 wide) and a temperature tm n per entry, both programs compute
      w r n = exp (-(√ max (‖x r‖² + ‖p n‖² - 2 ⟨x r, p n⟩) 0) / (|tm n| + 0.1)),
  the kernel   out r d = (∑ n, w r n · v n d) / (∑ n, w r n + 1e-8),   summing the codebook tile by tile into two running
  buffers and dividing once after the last tile, and the reference   out r d = ∑ n, (w r n / (∑ n', w r n' + 1e-8)) · v n d.
  On the extended reals a change of float format is the identity and sums may be cut into tiles and re-associated freely;
  the one step that needs the inputs to be real numbers is dividing the weighted sum as a whole instead of weight by
  weight: with real inputs every weight is a positive real, the divisor a positive real, and division by it distributes
  over the finite sum. The precondition gives exactly that: an entry whose absolute value is below +∞ is a real number.

  The three frames: the two kernels' are the generated frame certificates; the reference's is its generated run with the
  result dropped. The idealization changed no operation, so there is nothing to preserve. For the value claim the kernel's
  result array is read off its frame run (what each control case leaves in the running buffers and the result block, an
  induction over the grid points, the sixteen written blocks tiling the array, the host's closing reshape), the
  reference's result off its generated run one operation at a time, and the two arrays are equal index by index.
-/
import proofs.«145345_j18339510354278_1_alg».proof.Defs
import proofs.«145345_j18339510354278_1_alg».proof.Proof.Gen.Kernel
import proofs.«145345_j18339510354278_1_alg».proof.Proof.Gen.Kernel.Skeleton
import proofs.«145345_j18339510354278_1_alg».proof.Proof.Gen.Kernel.Launch
import proofs.«145345_j18339510354278_1_alg».proof.Proof.Gen.Kernel.Points
import proofs.«145345_j18339510354278_1_alg».proof.Proof.Gen.Kernel.Frame
import proofs.«145345_j18339510354278_1_alg».proof.Proof.Gen.KernelIdeal
import proofs.«145345_j18339510354278_1_alg».proof.Proof.Gen.KernelIdeal.Skeleton
import proofs.«145345_j18339510354278_1_alg».proof.Proof.Gen.KernelIdeal.Launch
import proofs.«145345_j18339510354278_1_alg».proof.Proof.Gen.KernelIdeal.Points
import proofs.«145345_j18339510354278_1_alg».proof.Proof.Gen.KernelIdeal.Frame
import proofs.«145345_j18339510354278_1_alg».proof.Proof.Gen.ReferenceIdeal
import proofs.«145345_j18339510354278_1_alg».proof.Proof.Gen.ReferenceIdeal.Run
import proofs.«145345_j18339510354278_1_alg».proof.Proof.Gen.ReferenceIdeal.Read
import proofs.«145345_j18339510354278_1_alg».proof.Proof.Gen.Pre_finite_inputs
import proofs.«145345_j18339510354278_1_alg».proof.Proof.Spec
import proofs.«145345_j18339510354278_1_alg».proof.Proof.Finite
import proofs.«145345_j18339510354278_1_alg».proof.Proof.RefValue
import proofs.«145345_j18339510354278_1_alg».proof.Proof.KFinal
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two programs end with equal results: the kernel's array of results normalised after the weighted sum, the
    reference's array of results with each weight normalised first, equal index by index because the inputs are real. -/
theorem algebraic : Cert.algebraic_KernelIdeal_ReferenceIdeal := by
  intro m ρ m' ρ' hpre hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3⟩ := Cert.Finite.real_of_finite_inputs _ _ _ _ (hpre c)
  refine (Cert.ReferenceIdeal.Read.val_main_v33_eq _ _ _ _).trans ?_
  rw [(hagree c).1, (hagree c).2.1, (hagree c).2.2.1, (hagree c).2.2.2]
  unfold Cert.ReferenceIdeal.Read.val_main_v33
  refine congrArg (fun A => shapeCast _ A _) (funext fun i => ?_)
  rw [Cert.ReferenceIdeal.RefValue.result_eq]
  unfold Cert.KernelIdeal.Final.Karr
  refine (Cert.Rbf.outK_eq_outR _ _ _ _ (fun r d => ?_) (fun n d => ?_) (fun n d => ?_) (fun n => ?_) (i 0) (i 1)).symm
  · exact r0 _
  · exact r1 _
  · exact r2 _
  · exact r3 _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
